-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 4
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S400x128, .f32⟩
  | .local _ .vmem, ⟨7, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelFrame.lean ====
/-
  The frame run of the graph-convolution kernel, at any float family: the adjacency matrix is handed to the
  kernel through TWO windows (its even and its odd blocks of 200 rows), so the launch deals that array's full
  share between them, one half each; the feature matrix and the weight matrix are resident whole; each grid
  point leaves in the output's staging buffer the two 200-row products `(A_blk · X) · W`, stacked.
-/
import proofs.«152470_g2800318677549_cont_9to1_1348_11_alg».proof.Proof.Gen.Kernel.Launch
import proofs.«152470_g2800318677549_cont_9to1_1348_11_alg».proof.Proof.Gen.Kernel.Skeleton
import proofs.«152470_g2800318677549_cont_9to1_1348_11_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- The core's buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rAdj : Rect S200x10000 := Rect.unit (s := S200x10000) ![0, 0] S200x10000.size inb_S200x10000_S200x10000_0_0
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rTop : Rect S400x128 := Rect.unit (s := S400x128) ![0, 0] S200x128.size inb_S400x128_S200x128_0_0
abbrev rBot : Rect S400x128 := Rect.unit (s := S400x128) ![200, 0] S200x128.size inb_S400x128_S200x128_200_0

/-! ## What the body leaves in the output window's buffer -/

/-- The output's staging buffer after the body, from the input windows' blocks: the later store (rows 200 to 399,
    from the odd adjacency block) listed first, then the earlier (rows 0 to 199, from the even block). -/
def outBuf (a0 a1 : Vec F S200x10000 .f32) (x : Vec F S10000x128 .f32) (w : Vec F S128x128 .f32) : Vec F S400x128 .f32 :=
  View.canon [⟨rBot, k0_pay2 (View.ld a1 rAdj) (View.ld x rX) (View.ld w rW)⟩,
    ⟨rTop, k0_pay1 (View.ld a0 rAdj) (View.ld x rX) (View.ld w rW)⟩]

/-- The two stores tile the buffer, so they cover it. -/
theorem coverOut (p0 : Vec F S200x128 .f32) (p1 : Vec F S200x128 .f32) (y : S400x128.Idx) :
    ∃ pc ∈ ([⟨rBot, p0⟩, ⟨rTop, p1⟩] : List (View.Piece (Elt F) S400x128 .f32)), y ∈ pc.1.set :=
  View.cover_of_tiled [⟨rBot, p0⟩, ⟨rTop, p1⟩] S200x128.size (by rfl) y

/-! ## The body's triple -/

set_option maxHeartbeats 1000000 in
/-- The kernel body on whole staging memrefs, the inputs' at read contents and the output's at anything, runs to
    the continuation holding the inputs' as they were and the output's at `outBuf` of the inputs'. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole)
    (a0 a1 : Vec F S200x10000 .f32) (x : Vec F S10000x128 .f32) (w : Vec F S128x128 .f32) (K : PUnit → sProp 𝕄) :
    iprop(owns (c : Thread nD τ) arg1 fullShare a0 ∗ owns (c : Thread nD τ) arg2 fullShare a1 ∗ owns (c : Thread nD τ) arg3 fullShare x
        ∗ owns (c : Thread nD τ) arg4 fullShare w ∗ (∃ d, owns (c : Thread nD τ) arg5 fullShare d)
        ∗ (iprop(owns (c : Thread nD τ) arg1 fullShare a0 ∗ owns (c : Thread nD τ) arg2 fullShare a1 ∗ owns (c : Thread nD τ) arg3 fullShare x
            ∗ owns (c : Thread nD τ) arg4 fullShare w ∗ owns (c : Thread nD τ) arg5 fullShare (outBuf a0 a1 x w)) -∗ K ⟨⟩))
      ⊢ wp frame (wpE (defs₀ (F := F)) Variants.none c none) E (cc0__gcn_body i arg1 harg1 arg2 harg2 arg3 harg3 arg4 harg4 arg5 harg5) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverOut _ _)

/-! ## The pipeline's proof data -/

/-- The proof data of the one pipeline on core `c`: the arrays as the region finds them; after the body at point
    `t` each input's buffer at its block and the output's at `outBuf` of the input blocks; the invariant the
    core's scoped buffers that are no staging buffer; nothing owed; the adjacency array's full share dealt in
    halves to the two windows that read it, every other array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBuf (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBuf (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and
    the core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The arrays at entry from the buffers behind them: the adjacency buffer's full share is dealt in halves to the
    two windows on it, every other buffer goes whole to its one window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have harrays : (dats m 0 c).arrays ((dats m 0 c).arrAt · 0)
      = bigSep Finset.univ fun w : Fin 5 => (((c.tc : Thread nD τ).loc (Pipeline.arrRef spec0 w)) ↦{(dats m 0 c).share w} (dats m 0 c).A w : sProp 𝕄) := by
    unfold Dat.arrays
    exact bigSep_congr fun w _ => by rw [(arr_whole0 w).set_eq_univ]; rfl
  rw [harrays]
  unfold Pipeline.arrBufs
  rw [bigSep_W0, bigSep_eq_bigSepL_of_eq [main_arg1, main_arg0, main_arg2, main_v0] (by decide) (by decide),
    share0, share1, share2, share3, share4]
  show (iprop((((c.tc : Thread nD τ).loc main_arg1) ↦{fullShare} V m c main_arg1) ∗ (((c.tc : Thread nD τ).loc main_arg0) ↦{fullShare} V m c main_arg0)
      ∗ (((c.tc : Thread nD τ).loc main_arg2) ↦{fullShare} V m c main_arg2) ∗ (((c.tc : Thread nD τ).loc main_v0) ↦{fullShare} V m c main_v0)) : sProp 𝕄) ⊢ _
  iintro ⟨H1, H0, H2, H3⟩
  ihave H1' := (pointsTo_share (PosShare.mem_left_op_right fullShare)).1 $$ H1
  icases H1' with ⟨Hl, Hr⟩
  isplitl [Hl]; · iexact Hl
  isplitl [Hr]; · iexact Hr
  isplitl [H0]; · iexact H0
  isplitl [H2]; · iexact H2
  iexact H3

/-- What the run ends in: every array of the pipeline at what the library computes from the proof data. -/
def RunPost (r : PUnit × MemSt nD τ sig (Elt F)) : Prop :=
  ∀ c : Dev nD, ∀ w : Fin 5, r.2.mem (((cfg0).spec w).arr.view.loc (c.tc : Thread nD τ)) = (dats m 0 c).arrAt w cfg0.N

set_option backward.isDefEq.respectTransparency.types false in
/-- For any values, from any memory with zero counters: every weakly fair execution of the program terminates,
    nothing faulting, and every final state has every array of the pipeline at what the library computes from
    the proof data. The launch for windows that share an array, the staging cells the proof's whole ghost state. -/
theorem run_main : θ_run defs (onTc (τ := τ) (main (F := F))) (s₀ m ρ) (RunPost m) :=
  Pipeline.θ_run_region_noSem_shared (Ix := Unit) (Name := ℕ) (U := UR sig nD τ) (Lvl := ℕ) cfgs (dats m) () cellOf_inj (0 : Fin 1) winFacts₀0
    emb₁ defs₀ Variants.none m ρ main
    (hbody := fun c => (body_obligation m c).loose) (hne := block_pos0) (harr := arr_whole0) (hstage := stage_whole0)
    (howed := fun _ _ => rfl)
    (u₀ := Rounds.initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr [H]; · iempintro
                       iexact H)
    (hin := fun c => by
      show (iprop(emp ∗ Pipeline.scopedRest (Ix := Unit) (Name := ℕ) (U := UR sig nD τ) (Lvl := ℕ) (Val := Elt F) spec0 c) : sProp 𝕄)
        ⊢ Pipeline.scopedRest (Ix := Unit) (Name := ℕ) (U := UR sig nD τ) (Lvl := ℕ) (Val := Elt F) spec0 c
      iintro ⟨-, H⟩; iexact H)
    (hout := fun c => by
      show (Pipeline.scopedRest (Ix := Unit) (Name := ℕ) (U := UR sig nD τ) (Lvl := ℕ) (Val := Elt F) spec0 c : sProp 𝕄)
        ⊢ iprop(emp ∗ Pipeline.scopedRest (Ix := Unit) (Name := ℕ) (U := UR sig nD τ) (Lvl := ℕ) (Val := Elt F) spec0 c)
      iintro H; isplitr [H]; · iempintro
      iexact H)
    (QY := fun _ _ => True)
    (hY := fun c s' => by iintro ⟨-, -, HSI⟩; imodintro; isplitr [HSI]; · ipureintro; trivial
                          iexact HSI)
    (hQ := fun s h c w => (h c).1 w)

/-- info: 'Cert.Kernel.Hand.run_main' depends on axioms: [propext, Classical.choice, Quot.sound] -/
#guard_msgs in #print axioms run_main

/-- The frame: the program runs to the end, faults nowhere, and leaves its three argument arrays unchanged —
    an input window's array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c 2).trans (((dats m 0 c).arrAt_in 2 rfl _).trans (A_eq m c 2)),
     (h c 0).trans (((dats m 0 c).arrAt_in 0 rfl _).trans (A_eq m c 0)),
     (h c 3).trans (((dats m 0 c).arrAt_in 3 rfl _).trans (A_eq m c 3))⟩) (run_main m ρ)

end Cert.Kernel.Hand

end
-- ==== Proof.KernelIdealFrame.lean ====
/-
  The frame run of the graph-convolution kernel, at any float family: the adjacency matrix is handed to the
  kernel through TWO windows (its even and its odd blocks of 200 rows), so the launch deals that array's full
  share between them, one half each; the feature matrix and the weight matrix are resident whole; each grid
  point leaves in the output's staging buffer the two 200-row products `(A_blk · X) · W`, stacked.
-/
import proofs.«152470_g2800318677549_cont_9to1_1348_11_alg».proof.Proof.Gen.KernelIdeal.Launch
import proofs.«152470_g2800318677549_cont_9to1_1348_11_alg».proof.Proof.Gen.KernelIdeal.Skeleton
import proofs.«152470_g2800318677549_cont_9to1_1348_11_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- The core's buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rAdj : Rect S200x10000 := Rect.unit (s := S200x10000) ![0, 0] S200x10000.size inb_S200x10000_S200x10000_0_0
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rTop : Rect S400x128 := Rect.unit (s := S400x128) ![0, 0] S200x128.size inb_S400x128_S200x128_0_0
abbrev rBot : Rect S400x128 := Rect.unit (s := S400x128) ![200, 0] S200x128.size inb_S400x128_S200x128_200_0

/-! ## What the body leaves in the output window's buffer -/

/-- The output's staging buffer after the body, from the input windows' blocks: the later store (rows 200 to 399,
    from the odd adjacency block) listed first, then the earlier (rows 0 to 199, from the even block). -/
def outBuf (a0 a1 : Vec F S200x10000 .f32) (x : Vec F S10000x128 .f32) (w : Vec F S128x128 .f32) : Vec F S400x128 .f32 :=
  View.canon [⟨rBot, k0_pay2 (View.ld a1 rAdj) (View.ld x rX) (View.ld w rW)⟩,
    ⟨rTop, k0_pay1 (View.ld a0 rAdj) (View.ld x rX) (View.ld w rW)⟩]

/-- The two stores tile the buffer, so they cover it. -/
theorem coverOut (p0 : Vec F S200x128 .f32) (p1 : Vec F S200x128 .f32) (y : S400x128.Idx) :
    ∃ pc ∈ ([⟨rBot, p0⟩, ⟨rTop, p1⟩] : List (View.Piece (Elt F) S400x128 .f32)), y ∈ pc.1.set :=
  View.cover_of_tiled [⟨rBot, p0⟩, ⟨rTop, p1⟩] S200x128.size (by rfl) y

/-! ## The body's triple -/

set_option maxHeartbeats 1000000 in
/-- The kernel body on whole staging memrefs, the inputs' at read contents and the output's at anything, runs to
    the continuation holding the inputs' as they were and the output's at `outBuf` of the inputs'. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole)
    (a0 a1 : Vec F S200x10000 .f32) (x : Vec F S10000x128 .f32) (w : Vec F S128x128 .f32) (K : PUnit → sProp 𝕄) :
    iprop(owns (c : Thread nD τ) arg1 fullShare a0 ∗ owns (c : Thread nD τ) arg2 fullShare a1 ∗ owns (c : Thread nD τ) arg3 fullShare x
        ∗ owns (c : Thread nD τ) arg4 fullShare w ∗ (∃ d, owns (c : Thread nD τ) arg5 fullShare d)
        ∗ (iprop(owns (c : Thread nD τ) arg1 fullShare a0 ∗ owns (c : Thread nD τ) arg2 fullShare a1 ∗ owns (c : Thread nD τ) arg3 fullShare x
            ∗ owns (c : Thread nD τ) arg4 fullShare w ∗ owns (c : Thread nD τ) arg5 fullShare (outBuf a0 a1 x w)) -∗ K ⟨⟩))
      ⊢ wp frame (wpE (defs₀ (F := F)) Variants.none c none) E (cc0__gcn_body i arg1 harg1 arg2 harg2 arg3 harg3 arg4 harg4 arg5 harg5) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverOut _ _)

/-! ## The pipeline's proof data -/

/-- The proof data of the one pipeline on core `c`: the arrays as the region finds them; after the body at point
    `t` each input's buffer at its block and the output's at `outBuf` of the input blocks; the invariant the
    core's scoped buffers that are no staging buffer; nothing owed; the adjacency array's full share dealt in
    halves to the two windows that read it, every other array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBuf (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBuf (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and
    the core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The arrays at entry from the buffers behind them: the adjacency buffer's full share is dealt in halves to the
    two windows on it, every other buffer goes whole to its one window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have harrays : (dats m 0 c).arrays ((dats m 0 c).arrAt · 0)
      = bigSep Finset.univ fun w : Fin 5 => (((c.tc : Thread nD τ).loc (Pipeline.arrRef spec0 w)) ↦{(dats m 0 c).share w} (dats m 0 c).A w : sProp 𝕄) := by
    unfold Dat.arrays
    exact bigSep_congr fun w _ => by rw [(arr_whole0 w).set_eq_univ]; rfl
  rw [harrays]
  unfold Pipeline.arrBufs
  rw [bigSep_W0, bigSep_eq_bigSepL_of_eq [main_arg1, main_arg0, main_arg2, main_v0] (by decide) (by decide),
    share0, share1, share2, share3, share4]
  show (iprop((((c.tc : Thread nD τ).loc main_arg1) ↦{fullShare} V m c main_arg1) ∗ (((c.tc : Thread nD τ).loc main_arg0) ↦{fullShare} V m c main_arg0)
      ∗ (((c.tc : Thread nD τ).loc main_arg2) ↦{fullShare} V m c main_arg2) ∗ (((c.tc : Thread nD τ).loc main_v0) ↦{fullShare} V m c main_v0)) : sProp 𝕄) ⊢ _
  iintro ⟨H1, H0, H2, H3⟩
  ihave H1' := (pointsTo_share (PosShare.mem_left_op_right fullShare)).1 $$ H1
  icases H1' with ⟨Hl, Hr⟩
  isplitl [Hl]; · iexact Hl
  isplitl [Hr]; · iexact Hr
  isplitl [H0]; · iexact H0
  isplitl [H2]; · iexact H2
  iexact H3

/-- What the run ends in: every array of the pipeline at what the library computes from the proof data. -/
def RunPost (r : PUnit × MemSt nD τ sig (Elt F)) : Prop :=
  ∀ c : Dev nD, ∀ w : Fin 5, r.2.mem (((cfg0).spec w).arr.view.loc (c.tc : Thread nD τ)) = (dats m 0 c).arrAt w cfg0.N

set_option backward.isDefEq.respectTransparency.types false in
/-- For any values, from any memory with zero counters: every weakly fair execution of the program terminates,
    nothing faulting, and every final state has every array of the pipeline at what the library computes from
    the proof data. The launch for windows that share an array, the staging cells the proof's whole ghost state. -/
theorem run_main : θ_run defs (onTc (τ := τ) (main (F := F))) (s₀ m ρ) (RunPost m) :=
  Pipeline.θ_run_region_noSem_shared (Ix := Unit) (Name := ℕ) (U := UR sig nD τ) (Lvl := ℕ) cfgs (dats m) () cellOf_inj (0 : Fin 1) winFacts₀0
    emb₁ defs₀ Variants.none m ρ main
    (hbody := fun c => (body_obligation m c).loose) (hne := block_pos0) (harr := arr_whole0) (hstage := stage_whole0)
    (howed := fun _ _ => rfl)
    (u₀ := Rounds.initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr [H]; · iempintro
                       iexact H)
    (hin := fun c => by
      show (iprop(emp ∗ Pipeline.scopedRest (Ix := Unit) (Name := ℕ) (U := UR sig nD τ) (Lvl := ℕ) (Val := Elt F) spec0 c) : sProp 𝕄)
        ⊢ Pipeline.scopedRest (Ix := Unit) (Name := ℕ) (U := UR sig nD τ) (Lvl := ℕ) (Val := Elt F) spec0 c
      iintro ⟨-, H⟩; iexact H)
    (hout := fun c => by
      show (Pipeline.scopedRest (Ix := Unit) (Name := ℕ) (U := UR sig nD τ) (Lvl := ℕ) (Val := Elt F) spec0 c : sProp 𝕄)
        ⊢ iprop(emp ∗ Pipeline.scopedRest (Ix := Unit) (Name := ℕ) (U := UR sig nD τ) (Lvl := ℕ) (Val := Elt F) spec0 c)
      iintro H; isplitr [H]; · iempintro
      iexact H)
    (QY := fun _ _ => True)
    (hY := fun c s' => by iintro ⟨-, -, HSI⟩; imodintro; isplitr [HSI]; · ipureintro; trivial
                          iexact HSI)
    (hQ := fun s h c w => (h c).1 w)

/-- info: 'Cert.KernelIdeal.Hand.run_main' depends on axioms: [propext, Classical.choice, Quot.sound] -/
#guard_msgs in #print axioms run_main

/-- The frame: the program runs to the end, faults nowhere, and leaves its three argument arrays unchanged —
    an input window's array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c 2).trans (((dats m 0 c).arrAt_in 2 rfl _).trans (A_eq m c 2)),
     (h c 0).trans (((dats m 0 c).arrAt_in 0 rfl _).trans (A_eq m c 0)),
     (h c 3).trans (((dats m 0 c).arrAt_in 3 rfl _).trans (A_eq m c 3))⟩) (run_main m ρ)

end Cert.KernelIdeal.Hand

end
-- ==== Proof.GcnAssoc.lean ====
/-
  The mathematics of the graph-convolution layer, away from any program: for a finite family of reals the row
  `(a · X) · w` and the row `a · (X · w)` are one number — matrix multiplication is associative —, read on the
  extended reals, where it needs every entry FINITE (the distributive law fails at the infinities).
-/
import Idealize.ShloMosaic.PureOps.Ideal
import Idealize.ShloMosaic.Lib.ValueIdx

noncomputable section

namespace Cert.Gcn

open Idealize.ShloMosaic

/-- Every entry of the family is a real number. -/
def AllReal {ι : Type} (f : ι → EReal) : Prop := ∀ i, ∃ r : ℝ, f i = (r : EReal)

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the two products at one output entry, over real entries: summing first over the inner
    contraction `j` and then over `k`, or first over `k` and then over `j`, gives one number. -/
theorem assoc_real {J K : Type} [Fintype J] [Fintype K] (a : J → ℝ) (x : J → K → ℝ) (w : K → ℝ) :
    ∑ k, (∑ j, a j * x j k) * w k = ∑ j, a j * ∑ k, x j k * w k := by
  simp only [Finset.sum_mul, Finset.mul_sum]
  rw [Finset.sum_comm]
  exact Finset.sum_congr rfl fun j _ => Finset.sum_congr rfl fun k _ => mul_assoc _ _ _

/-- The same on the extended reals, every entry being a real number. -/
theorem assoc_ereal {J K : Type} [Fintype J] [Fintype K] (a : J → EReal) (x : J → K → EReal) (w : K → EReal)
    (ha : AllReal a) (hx : ∀ j, AllReal (x j)) (hw : AllReal w) :
    ∑ k, (∑ j, a j * x j k) * w k = ∑ j, a j * ∑ k, x j k * w k := by
  choose a' ha' using ha
  choose x' hx' using hx
  choose w' hw' using hw
  have e1 : ∀ k, (∑ j, a j * x j k) * w k = (((∑ j, a' j * x' j k) * w' k : ℝ) : EReal) := fun k => by
    rw [EReal.coe_mul, coe_sum, hw' k]
    exact congrArg (· * (w' k : EReal)) (Finset.sum_congr rfl fun j _ => by rw [ha' j, hx' j k, EReal.coe_mul])
  have e2 : ∀ j, a j * ∑ k, x j k * w k = ((a' j * ∑ k, x' j k * w' k : ℝ) : EReal) := fun j => by
    rw [EReal.coe_mul, coe_sum, ha' j]
    exact congrArg ((a' j : EReal) * ·) (Finset.sum_congr rfl fun k _ => by rw [hx' j k, hw' k, EReal.coe_mul])
  rw [Finset.sum_congr rfl fun k _ => e1 k, Finset.sum_congr rfl fun j _ => e2 j, ← coe_sum, ← coe_sum, assoc_real]

/-! ## The layer as a function of its three arrays -/

open Idealize.ShloMosaic.ValueIdx

/-- The row and the column of a result index, as literal coordinates. -/
abbrev row (i : (⟨2, ![10000, 128]⟩ : Shape).Idx) : Fin 10000 := ⟨(i 0).val, (i 0).isLt⟩
abbrev col (i : (⟨2, ![10000, 128]⟩ : Shape).Idx) : Fin 128 := ⟨(i 1).val, (i 1).isLt⟩

/-- The kernel's grouping: `(adj · x) · w` at result index `i`. -/
def layerLeft (adj : (⟨2, ![10000, 10000]⟩ : Shape).Idx → EReal) (x : (⟨2, ![10000, 128]⟩ : Shape).Idx → EReal)
    (w : (⟨2, ![128, 128]⟩ : Shape).Idx → EReal) : (⟨2, ![10000, 128]⟩ : Shape).Idx → EReal :=
  fun i => ∑ k : Fin 128, (∑ j : Fin 10000, adj (ix2 (row i) j) * x (ix2 j k)) * w (ix2 k (col i))

/-- The reference's grouping: `adj · (x · w)` at result index `i`. -/
def layerRight (adj : (⟨2, ![10000, 10000]⟩ : Shape).Idx → EReal) (x : (⟨2, ![10000, 128]⟩ : Shape).Idx → EReal)
    (w : (⟨2, ![128, 128]⟩ : Shape).Idx → EReal) : (⟨2, ![10000, 128]⟩ : Shape).Idx → EReal :=
  fun i => ∑ j : Fin 10000, adj (ix2 (row i) j) * ∑ k : Fin 128, x (ix2 j k) * w (ix2 k (col i))

/-- On arrays of real numbers the two groupings are one array. -/
theorem layer_assoc (adj : (⟨2, ![10000, 10000]⟩ : Shape).Idx → EReal) (x : (⟨2, ![10000, 128]⟩ : Shape).Idx → EReal)
    (w : (⟨2, ![128, 128]⟩ : Shape).Idx → EReal) (hadj : AllReal adj) (hx : AllReal x) (hw : AllReal w) :
    layerLeft adj x w = layerRight adj x w :=
  funext fun i => assoc_ereal (fun j => adj (ix2 (row i) j)) (fun j k => x (ix2 j k)) (fun k => w (ix2 k (col i)))
    (fun j => hadj _) (fun j k => hx _) (fun k => hw _)

/-- The left grouping at an index whose coordinates are known by value. -/
theorem layerLeft_apply (adj : (⟨2, ![10000, 10000]⟩ : Shape).Idx → EReal) (x : (⟨2, ![10000, 128]⟩ : Shape).Idx → EReal)
    (w : (⟨2, ![128, 128]⟩ : Shape).Idx → EReal) (i : (⟨2, ![10000, 128]⟩ : Shape).Idx) (r : Fin 10000) (l : Fin 128)
    (hr : (i 0).val = r.val) (hl : (i 1).val = l.val) :
    layerLeft adj x w i = ∑ k : Fin 128, (∑ j : Fin 10000, adj (ix2 r j) * x (ix2 j k)) * w (ix2 k l) := by
  have e1 : row i = r := Fin.ext hr
  have e2 : col i = l := Fin.ext hl
  unfold layerLeft
  rw [e1, e2]

end Cert.Gcn

end
-- ==== Proof.KernelValue.lean ====
/-
  What the idealized kernel computes, index by index: each 200-row product `(A_blk · X) · W` at an entry is the
  double sum over the contraction indices, the two stacked products fill the output's 400-row block, and the 25
  blocks tile the result array — so the result is `(adj · x) · weight`, read entry by entry.
-/
import proofs.«152470_g2800318677549_cont_9to1_1348_11_alg».proof.Proof.KernelIdealFrame
import proofs.«152470_g2800318677549_cont_9to1_1348_11_alg».proof.Proof.GcnAssoc
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat Cfg Window)

/-! ## The two matrix products at an entry -/

theorem lhsA_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhsA_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem rhsA_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem rhsA_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The first product, a 200-row block of the adjacency matrix times the feature matrix, at entry (p, k):
    the sum over the 10000 nodes. -/
theorem prodAX_apply (a : FVec Ideal S200x10000 .f32) (x : FVec Ideal S10000x128 .f32) (p : Fin 200) (k : Fin 128) :
    matmul (F := Ideal) dot_S200x10000_S10000x128_S200x128_1_0_0_1_n_n none a x (constant (F := Ideal) S200x128 .f32 0x00000000#32) (ix2 p k)
      = ∑ j : Fin 10000, a (ix2 p j) * x (ix2 j k) := by
  simp only [matmul]
  rw [Ideal.matmul_constant_zero_apply, ← Equiv.sum_comp (contrEquiv1 dot_S200x10000_S10000x128_S200x128_1_0_0_1_n_n 10000 rfl rfl).symm]
  refine Finset.sum_congr rfl fun j _ => ?_
  have hk := contrEquiv1_symm_val dot_S200x10000_S10000x128_S200x128_1_0_0_1_n_n 10000 rfl rfl j
  have el : dot_S200x10000_S10000x128_S200x128_1_0_0_1_n_n.lhsIdx (ix2 p k) ((contrEquiv1 dot_S200x10000_S10000x128_S200x128_1_0_0_1_n_n 10000 rfl rfl).symm j) = ix2 p j := funext fun a => Fin.ext (by
    match a with
    | ⟨0, _⟩ => exact lhsA_0 _ _
    | ⟨1, _⟩ => exact (lhsA_1 _ _).trans hk)
  have er : dot_S200x10000_S10000x128_S200x128_1_0_0_1_n_n.rhsIdx (ix2 p k) ((contrEquiv1 dot_S200x10000_S10000x128_S200x128_1_0_0_1_n_n 10000 rfl rfl).symm j) = ix2 j k := funext fun a => Fin.ext (by
    match a with
    | ⟨0, _⟩ => exact (rhsA_0 _ _).trans hk
    | ⟨1, _⟩ => exact rhsA_1 _ _)
  rw [el, er]

theorem lhsB_0 (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
theorem lhsB_1 (i : S200x128.Idx) (q : dot_S200x128_S128x128_S200x128_1_0_0_1_n_n.contr.Idx) :
    (dot_S200x128_S128x128_S200x128_1_0_0_1_n_n.lhsIdx i q 1).val = (q ⟨0, by decide⟩).val :=
  dot_S200x128_S128x128_S200x128_1_0_0_1_n_n.lhsIdx_val_of_single rfl i q
theorem rhsB_0 (i : S200x128.Idx) (q : dot_S200x128_S128x128_S200x128_1_0_0_1_n_n.contr.Idx) :
    (dot_S200x128_S128x128_S200x128_1_0_0_1_n_n.rhsIdx i q 0).val = (q ⟨0, by decide⟩).val :=
  dot_S200x128_S128x128_S200x128_1_0_0_1_n_n.rhsIdx_val_of_single rfl i q
theorem rhsB_1 (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- The second product, a 200-row intermediate times the weight matrix, at entry (p, q): the sum over the 128
    features. -/
theorem prodYW_apply (y : FVec Ideal S200x128 .f32) (w : FVec Ideal S128x128 .f32) (p : Fin 200) (q : Fin 128) :
    matmul (F := Ideal) dot_S200x128_S128x128_S200x128_1_0_0_1_n_n none y w (constant (F := Ideal) S200x128 .f32 0x00000000#32) (ix2 p q)
      = ∑ k : Fin 128, y (ix2 p k) * w (ix2 k q) := by
  simp only [matmul]
  rw [Ideal.matmul_constant_zero_apply, ← Equiv.sum_comp (contrEquiv1 dot_S200x128_S128x128_S200x128_1_0_0_1_n_n 128 rfl rfl).symm]
  refine Finset.sum_congr rfl fun k _ => ?_
  have hk := contrEquiv1_symm_val dot_S200x128_S128x128_S200x128_1_0_0_1_n_n 128 rfl rfl k
  have el : dot_S200x128_S128x128_S200x128_1_0_0_1_n_n.lhsIdx (ix2 p q) ((contrEquiv1 dot_S200x128_S128x128_S200x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S200x128_S128x128_S200x128_1_0_0_1_n_n.rhsIdx (ix2 p q) ((contrEquiv1 dot_S200x128_S128x128_S200x128_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-- The stored value of either half at entry (p, q): the double sum `∑ₖ (∑ⱼ a(p,j) · x(j,k)) · w(k,q)`. -/
theorem pay1_apply (a : Vec Ideal S200x10000 .f32) (x : Vec Ideal S10000x128 .f32) (w : Vec Ideal S128x128 .f32) (p : Fin 200) (q : Fin 128) :
    k0_pay1 (F := Ideal) a x w (ix2 p q) = ∑ k : Fin 128, (∑ j : Fin 10000, a (ix2 p j) * x (ix2 j k)) * w (ix2 k q) := by
  unfold k0_pay1
  refine (prodYW_apply _ w p q).trans ?_
  exact Finset.sum_congr rfl fun k _ => by rw [prodAX_apply]

/-- The two halves store one function of their operands. -/
theorem pay2_eq : k0_pay2 (F := Ideal) = k0_pay1 (F := Ideal) := rfl

/-! ## The blocks the body reads, as entries of the argument arrays -/

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: at point `t` the even window is on block `2t` of 200 rows, the
    odd one on block `2t + 1`, the output on block `t` of 400 rows, the resident matrices on their one block. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 25 := lt_of_lt_of_eq t.isLt N_0

/-- Row `p` of the even adjacency block at point `t` is row `400 t + p` of the adjacency matrix. -/
theorem adjEven_read (c : Dev nD) (t : Fin cfg0.N) (p : Fin 200) (j : Fin 10000) :
    iblk m c 0 t (ix2 p j) = V m c main_arg1 (ix2 ⟨400 * t.val + p.val, by have := t_lt t; omega⟩ j) := by
  obtain ⟨e0, e1, -⟩ := idx_facts t
  show V m c main_arg1 (((cfg0.win 0).blk t).view.emb (ix2 p j)) = _
  refine congrArg _ (funext fun a => Fin.ext ?_)
  match a with
  | ⟨0, _⟩ => show win0_0.index t (0 : Fin 2) * 200 + 1 * p.val = 400 * t.val + p.val; omega
  | ⟨1, _⟩ => show win0_0.index t (1 : Fin 2) * 10000 + 1 * j.val = j.val; omega

/-- Row `p` of the odd adjacency block at point `t` is row `400 t + 200 + p` of the adjacency matrix. -/
theorem adjOdd_read (c : Dev nD) (t : Fin cfg0.N) (p : Fin 200) (j : Fin 10000) :
    iblk m c 1 t (ix2 p j) = V m c main_arg1 (ix2 ⟨400 * t.val + 200 + p.val, by have := t_lt t; omega⟩ j) := by
  obtain ⟨-, -, e0, e1, -⟩ := idx_facts t
  show V m c main_arg1 (((cfg0.win 1).blk t).view.emb (ix2 p j)) = _
  refine congrArg _ (funext fun a => Fin.ext ?_)
  match a with
  | ⟨0, _⟩ => show win0_1.index t (0 : Fin 2) * 200 + 1 * p.val = 400 * t.val + 200 + p.val; omega
  | ⟨1, _⟩ => show win0_1.index t (1 : Fin 2) * 10000 + 1 * j.val = j.val; omega

/-- The resident feature block is the feature matrix. -/
theorem feat_read (c : Dev nD) (t : Fin cfg0.N) (j : Fin 10000) (k : Fin 128) :
    iblk m c 2 t (ix2 j k) = V m c main_arg0 (ix2 j k) := by
  obtain ⟨-, -, -, -, e0, e1, -⟩ := idx_facts t
  show V m c main_arg0 (((cfg0.win 2).blk t).view.emb (ix2 j k)) = _
  refine congrArg _ (funext fun a => Fin.ext ?_)
  match a with
  | ⟨0, _⟩ => show win0_2.index t (0 : Fin 2) * 10000 + 1 * j.val = j.val; omega
  | ⟨1, _⟩ => show win0_2.index t (1 : Fin 2) * 128 + 1 * k.val = k.val; omega

/-- The resident weight block is the weight matrix. -/
theorem weight_read (c : Dev nD) (t : Fin cfg0.N) (k : Fin 128) (q : Fin 128) :
    iblk m c 3 t (ix2 k q) = V m c main_arg2 (ix2 k q) := by
  obtain ⟨-, -, -, -, -, -, e0, e1, -⟩ := idx_facts t
  show V m c main_arg2 (((cfg0.win 3).blk t).view.emb (ix2 k q)) = _
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-! ## From the blocks to the array -/

/-- The result array the kernel ends with: the left-grouped layer of the argument arrays as the region finds them. -/
abbrev target (c : Dev nD) : S10000x128.Idx → Elt Ideal .f32 :=
  Cert.Gcn.layerLeft (V m c main_arg1) (V m c main_arg0) (V m c main_arg2)

/-- What point `t` writes back is block `t` of the target: rows `400 t` to `400 t + 199` from the even adjacency block,
    rows `400 t + 200` to `400 t + 399` from the odd one. -/
theorem flushedOut_eq (c : Dev nD) (t : Fin cfg0.N) :
    (dats m 0 c).flushed 4 t = ((cfg0.win 4).blk t).view.read (Elt Ideal) (target m c) := by
  show (cfg0.win 4).cut (grid0.coords t) ((dats m 0 c).after 4 t) = _
  rw [after0_4]
  unfold outBuf
  simp only [View.ld_unit_zero (S := S200x10000) hz, View.ld_unit_zero (S := S10000x128) hz, View.ld_unit_zero (S := S128x128) hz]
  obtain ⟨-, -, -, -, -, -, -, -, e0, e1⟩ := idx_facts t
  have ht := t_lt t
  funext y
  refine View.canon_apply_of_pieces (fun y : S400x128.Idx => target m c (((cfg0.win 4).blk t).view.emb y)) _ ?_ y (coverOut _ _ y)
  intro pc hpc x
  simp only [List.mem_cons, List.not_mem_nil, or_false] at hpc
  rcases hpc with rfl | rfl
  · obtain ⟨p, q, rfl⟩ : ∃ (p : Fin 200) (q : Fin 128), x = ix2 p q := ⟨x 0, x 1, eq_ix2 x⟩
    show k0_pay2 (F := Ideal) (iblk m c 1 t) (iblk m c 2 t) (iblk m c 3 t) (ix2 p q) = target m c (((cfg0.win 4).blk t).view.emb (rBot.emb (ix2 p q)))
    rw [pay2_eq, pay1_apply]
    refine Eq.trans ?_ (Cert.Gcn.layerLeft_apply (V m c main_arg1) (V m c main_arg0) (V m c main_arg2)
      (((cfg0.win 4).blk t).view.emb (rBot.emb (ix2 p q))) ⟨400 * t.val + 200 + p.val, by omega⟩ q ?_ ?_).symm
    · exact Finset.sum_congr rfl fun k _ => by
        rw [weight_read]
        exact congrArg (· * _) (Finset.sum_congr rfl fun j _ => by rw [adjOdd_read, feat_read])
    · show win0_4.index t (0 : Fin 2) * 400 + 1 * (200 + 1 * p.val) = 400 * t.val + 200 + p.val; omega
    · show win0_4.index t (1 : Fin 2) * 128 + 1 * (0 + 1 * q.val) = q.val; omega
  · obtain ⟨p, q, rfl⟩ : ∃ (p : Fin 200) (q : Fin 128), x = ix2 p q := ⟨x 0, x 1, eq_ix2 x⟩
    show k0_pay1 (F := Ideal) (iblk m c 0 t) (iblk m c 2 t) (iblk m c 3 t) (ix2 p q) = target m c (((cfg0.win 4).blk t).view.emb (rTop.emb (ix2 p q)))
    rw [pay1_apply]
    refine Eq.trans ?_ (Cert.Gcn.layerLeft_apply (V m c main_arg1) (V m c main_arg0) (V m c main_arg2)
      (((cfg0.win 4).blk t).view.emb (rTop.emb (ix2 p q))) ⟨400 * t.val + p.val, by omega⟩ q ?_ ?_).symm
    · exact Finset.sum_congr rfl fun k _ => by
        rw [weight_read]
        exact congrArg (· * _) (Finset.sum_congr rfl fun j _ => by rw [adjEven_read, feat_read])
    · show win0_4.index t (0 : Fin 2) * 400 + 1 * (0 + 1 * p.val) = 400 * t.val + p.val; omega
    · show win0_4.index t (1 : Fin 2) * 128 + 1 * (0 + 1 * q.val) = q.val; omega

/-- An index of the result array is in point `t`'s block iff each coordinate is in the block's range on its axis. -/
theorem mem_blkOut (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Every 400-row block of the result is some point's. -/
theorem idx_onto : ∀ q0 : Fin 25, ∃ t : Fin cfg0.N, win0_4.index t = ![q0.val, 0] :=
  (by decide +kernel : ∀ q0 : Fin 25, ∃ t : Fin grid0.N, win0_4.index t = ![q0.val, 0])

/-- The 25 blocks tile the result array: row `r` is in the block of point `r / 400`. -/
theorem coverOutArr (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  obtain ⟨t, ht⟩ := idx_onto ⟨(i 0).val / 400, by omega⟩
  have q0 : win0_4.index t (0 : Fin 2) = (i 0).val / 400 := congrFun ht 0
  have q1 : win0_4.index t (1 : Fin 2) = 0 := congrFun ht 1
  refine ⟨t, flush0_4 t, ?_⟩
  rw [mem_blkOut]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- The result array after the run is the target, whole. -/
theorem finalOut (c : Dev nD) : (dats m 0 c).arrAt 4 cfg0.N = target m c :=
  (dats m 0 c).arrAt_eq_of_cover 4 (target m c) (fun t _ => flushedOut_eq m c t) coverOutArr

/-! ## The run, read -/

/-- The kernel's run re-posted: the result array at the left-grouped layer of the arguments, the arguments unchanged. -/
theorem run : θ_run defs (onTc (τ := τ) (main (F := Ideal))) ⟨m, fun _ => 0, ρ⟩ fun r => ∀ c : Dev nD,
      r.2.mem ((c.tc : Thread nD τ).loc main_v0)
        = Cert.Gcn.layerLeft (m ((c.tc : Thread nD τ).loc main_arg1)) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c 4).trans (finalOut m c),
     (h c 2).trans (((dats m 0 c).arrAt_in 2 rfl _).trans (A_eq m c 2)),
     (h c 0).trans (((dats m 0 c).arrAt_in 0 rfl _).trans (A_eq m c 0)),
     (h c 3).trans (((dats m 0 c).arrAt_in 3 rfl _).trans (A_eq m c 3))⟩) (run_main m ρ)

end Cert.KernelIdeal.HandValue

end
-- ==== Proof.RefValue.lean ====
/-
  What the reference computes, index by index: `adj · (x · weight)`, the sum over the 10000 nodes of an
  adjacency entry times the sum over the 128 features.
-/
import proofs.«152470_g2800318677549_cont_9to1_1348_11_alg».proof.Proof.Gen.ReferenceIdeal.Read
import proofs.«152470_g2800318677549_cont_9to1_1348_11_alg».proof.Proof.GcnAssoc

noncomputable section

namespace Cert.ReferenceIdeal.HandValue

open Cert.ReferenceIdeal Cert.ReferenceIdeal.Read Cert.Gcn
open Idealize.ShloMosaic Idealize.ShloMosaic.ValueIdx

/-- The reference's result stage is the right-grouped layer of its three arguments. -/
theorem ref_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v1 (F := Ideal) x0 x1 x2 = layerRight x1 x0 x2 := by
  funext i
  have e1 : ∀ j : Fin 10000, lidx_main_v1 i j = ix2 (row i) j := fun j => funext fun a => Fin.ext (by
    match a with
    | ⟨0, _⟩ => rfl
    | ⟨1, _⟩ => rfl)
  have e2 : ∀ (j : Fin 10000) (k : Fin 128), lidx_main_v0 (ridx_main_v1 i j) k = ix2 j k := fun j k => funext fun a => Fin.ext (by
    match a with
    | ⟨0, _⟩ => rfl
    | ⟨1, _⟩ => rfl)
  have e3 : ∀ (j : Fin 10000) (k : Fin 128), ridx_main_v0 (ridx_main_v1 i j) k = ix2 k (col i) := fun j k => funext fun a => Fin.ext (by
    match a with
    | ⟨0, _⟩ => rfl
    | ⟨1, _⟩ => rfl)
  rw [val_main_v1_apply]
  unfold layerRight
  refine Finset.sum_congr rfl fun j _ => ?_
  rw [val_main_v0_apply, e1]
  exact congrArg (x1 (ix2 (row i) j) * ·) (Finset.sum_congr rfl fun k _ => by rw [e2, e3])

end Cert.ReferenceIdeal.HandValue

end
-- ==== Proof.GcnFinite.lean ====
/-
  The precondition read back: "every float input is finite" says, entry by entry, that each of the three argument
  arrays holds real numbers — `|x| < +∞` on the extended reals excludes exactly the two infinities.
-/
import proofs.«152470_g2800318677549_cont_9to1_1348_11_alg».proof.Proof.Gen.Pre_finite_inputs
import proofs.«152470_g2800318677549_cont_9to1_1348_11_alg».proof.Proof.GcnAssoc
import Idealize.ShloMosaic.Lib.ReduceAll
import Idealize.ShloMosaic.Lib.ValueIdx
import Idealize.ShloMosaic.PureOps.Ideal.Laws

noncomputable section

namespace Cert.Gcn

open Idealize.ShloMosaic Cert.Pre_finite_inputs Cert.Pre_finite_inputs.Gen

instance : Subsingleton S_.Idx := ⟨fun a b => funext fun d => d.elim0⟩

/-- The f32 pattern with all-ones exponent and zero significand denotes +∞. -/
theorem inf_eq : Ideal.ofBits .f32 0x7F800000#32 = (⊤ : EReal) := by
  simp [Ideal.ofBits, Ideal.ieee]

/-- An extended real whose absolute value is below +∞ is a real number. -/
theorem real_of_abs_lt (x : EReal) (h : Ideal.cmp .olt (max x (-x)) (Ideal.ofBits .f32 0x7F800000#32) = 1#1) : ∃ r : ℝ, x = (r : EReal) := by
  rw [inf_eq] at h
  induction x using EReal.rec with
  | bot => simp [Ideal.cmp] at h
  | top => simp [Ideal.cmp] at h
  | coe r => exact ⟨r, rfl⟩

theorem finite_of_pre (x0 : FVec Ideal S10000x128 .f32) (x1 : FVec Ideal S10000x10000 .f32) (x2 : FVec Ideal S128x128 .f32)
    (h : fn (F := Ideal) x0 x1 x2 = fun _ => 1#1) : AllReal x0 ∧ AllReal x1 ∧ AllReal x2 := by
  have h0 := congrFun h ValueIdx.ix0
  dsimp only [fn] at h0
  change IntOp.andi (IntOp.andi _ _) _ = 1#1 at h0
  obtain ⟨h01, hc⟩ := IntOp.andi_eq_one.1 h0
  obtain ⟨ha, hb⟩ := IntOp.andi_eq_one.1 h01
  refine ⟨fun i => ?_, fun i => ?_, fun i => ?_⟩
  · have e := Host.reduce_andi_all _ _ _ _ _ ha i
    exact real_of_abs_lt (x0 i) e
  · have e := Host.reduce_andi_all _ _ _ _ _ hb i
    exact real_of_abs_lt (x1 i) e
  · have e := Host.reduce_andi_all _ _ _ _ _ hc i
    exact real_of_abs_lt (x2 i) e

end Cert.Gcn

end
-- ==== Proof.lean ====
/-
  The graph-convolution layer `adj · (x · weight)` against a fused kernel that computes `(adj_blk · x) · weight` on
  400 rows per grid point, the adjacency matrix streamed through two 200-row windows.

  Frames: the kernel's launch deals the adjacency array's share between its two windows; the body loads, multiplies
  and stores, so every argument array ends as it began (at the word level and over the extended reals alike); the
  reference is two host products. The idealization rewrote nothing. Values: the 25 output blocks tile the result,
  each entry the double sum `∑ₖ (∑ⱼ adj(r,j) · x(j,k)) · w(k,l)`; the reference's entry is `∑ⱼ adj(r,j) · ∑ₖ x(j,k) · w(k,l)`;
  the two agree by associativity of the matrix product, which on the extended reals needs the inputs finite —
  the precondition.
-/
import proofs.«152470_g2800318677549_cont_9to1_1348_11_alg».proof.Defs
import proofs.«152470_g2800318677549_cont_9to1_1348_11_alg».proof.Proof.Gen.Kernel
import proofs.«152470_g2800318677549_cont_9to1_1348_11_alg».proof.Proof.Gen.KernelIdeal
import proofs.«152470_g2800318677549_cont_9to1_1348_11_alg».proof.Proof.Gen.ReferenceIdeal
import proofs.«152470_g2800318677549_cont_9to1_1348_11_alg».proof.Proof.Gen.Pre_finite_inputs
import proofs.«152470_g2800318677549_cont_9to1_1348_11_alg».proof.Proof.Gen.ReferenceIdeal.Run
import proofs.«152470_g2800318677549_cont_9to1_1348_11_alg».proof.Proof.Gen.ReferenceIdeal.Read
import proofs.«152470_g2800318677549_cont_9to1_1348_11_alg».proof.Proof.KernelFrame
import proofs.«152470_g2800318677549_cont_9to1_1348_11_alg».proof.Proof.KernelIdealFrame
import proofs.«152470_g2800318677549_cont_9to1_1348_11_alg».proof.Proof.KernelValue
import proofs.«152470_g2800318677549_cont_9to1_1348_11_alg».proof.Proof.RefValue
import proofs.«152470_g2800318677549_cont_9to1_1348_11_alg».proof.Proof.GcnFinite

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end, the kernel's result the left-grouped layer of the arguments and the reference's the
    right-grouped one; the arguments agree and are arrays of real numbers, so the two results are one array. -/
theorem algebraic : Cert.algebraic_KernelIdeal_ReferenceIdeal := by
  intro m ρ m' ρ' hpre hagree
  refine ⟨_, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.HandValue.ref_eq, (hagree c).1, (hagree c).2.1, (hagree c).2.2]
  obtain ⟨h0, h1, h2⟩ := Cert.Gcn.finite_of_pre _ _ _ (hpre c)
  exact (Cert.Gcn.layer_assoc _ _ _ h1 h0 h2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
